-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S16384x64 : Shape := ⟨2, ![16384, 64]⟩
abbrev S16384 : Shape := ⟨1, ![16384]⟩
abbrev S16384x1 : Shape := ⟨2, ![16384, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  transposes_S64x128_p1_0_S128x64 : S64x128.Transposes [1, 0] S128x64
  reduces_S16384x64_S16384 : S16384x64.Reduces [1] S16384
  shapeCasts_S16384_S16384x1 : S16384.ShapeCasts S16384x1
  broadcasts_S16384x1_S16384x64 : S16384x1.Broadcasts S16384x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.RowMath.lean ====
/-
  One token's row through the memory layer, as mathematics.

  Over the reals: a row `x` of 128 numbers is scaled to `x / max ‖x‖ e` (`e > 0` the norm floor), each of the 64
  bank rows likewise; the logits are the inner products of the scaled row with the scaled bank rows, divided by
  the temperature `d`; the attention weights are their softmax; the result is the scaled row plus the
  weights' mixture of the scaled bank rows.

  Over the extended reals the same row is spelt in two ways. The first multiplies by the reciprocal square root of
  `max (∑ x², e²)`, multiplies the bank by `1/d` before the inner product, and takes the softmax with no shift.
  The second divides by `max (√∑ x²) e`, divides the inner product by `d`, and subtracts a shift from every logit
  before exponentiating. On real inputs both are the real row: `√(max a e²) = max (√a) e`, a factor
  `1/d` leaves a finite sum, and a common finite shift cancels in a softmax.
-/
import Idealize.ShloMosaic.PureOps.Ideal

noncomputable section

namespace Cert.RowMath

open Idealize.ShloMosaic
open scoped BigOperators

/-! ## Coercions through the operations -/

theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_max (a b : ℝ) : max (a : EReal) (b : EReal) = ((max a b : ℝ) : EReal) :=
  (EReal.coe_strictMono.monotone.map_max).symm

theorem div_coe_coe (x y : ℝ) (hy : y ≠ 0) : Ideal.div (x : EReal) (y : EReal) = ((x / y : ℝ) : EReal) := by
  rw [Ideal.div_coe hy, ← EReal.coe_mul, mul_one_div]

theorem sqrt_coe_nonneg (r : ℝ) (h : 0 ≤ r) : Ideal.sqrt (r : EReal) = ((Real.sqrt r : ℝ) : EReal) := by
  rw [Ideal.sqrt_coe, if_neg (not_lt.2 h)]

theorem rsqrt_coe_pos (r : ℝ) (h : 0 < r) : Ideal.rsqrt (r : EReal) = (((Real.sqrt r)⁻¹ : ℝ) : EReal) := by
  rw [Ideal.rsqrt_coe, if_neg (not_lt.2 h.le), if_neg h.ne']

/-! ## The row over the reals -/

/-- The norm of a row, floored at `e`. -/
def floorNorm (e : ℝ) (v : Fin 128 → ℝ) : ℝ := max (Real.sqrt (∑ k, v k * v k)) e

/-- A row scaled to unit length (or by `1/e` when it is shorter than `e`). -/
def unitRow (e : ℝ) (v : Fin 128 → ℝ) (k : Fin 128) : ℝ := v k / floorNorm e v

/-- The logits: inner products with the bank rows over the temperature. -/
def logits (d : ℝ) (u : Fin 128 → ℝ) (b : Fin 64 → Fin 128 → ℝ) (j : Fin 64) : ℝ := (∑ k, u k * b j k) / d

/-- The softmax of 64 logits. -/
def weights (s : Fin 64 → ℝ) (j : Fin 64) : ℝ := Real.exp (s j) / ∑ j', Real.exp (s j')

/-- A row plus a weighted mixture of bank rows. -/
def mixR (u : Fin 128 → ℝ) (a : Fin 64 → ℝ) (b : Fin 64 → Fin 128 → ℝ) (k : Fin 128) : ℝ := u k + ∑ j, a j * b j k

/-- The layer's result for one row. -/
def enhanced (e d : ℝ) (x : Fin 128 → ℝ) (B : Fin 64 → Fin 128 → ℝ) : Fin 128 → ℝ :=
  mixR (unitRow e x) (weights (logits d (unitRow e x) fun j => unitRow e (B j))) fun j => unitRow e (B j)

theorem floorNorm_pos {e : ℝ} (he : 0 < e) (v : Fin 128 → ℝ) : 0 < floorNorm e v := lt_max_of_lt_right he

theorem sum_exp_pos (s : Fin 64 → ℝ) : 0 < ∑ j', Real.exp (s j') :=
  Finset.sum_pos (fun j _ => Real.exp_pos _) ⟨0, Finset.mem_univ _⟩

/-! ## The pieces over the extended reals -/

/-- Scaling by division, the sum of squares started from `z`. -/
def unitDiv (z E : EReal) (u : Fin 128 → EReal) (k : Fin 128) : EReal :=
  Ideal.div (u k) (max (Ideal.sqrt (z + ∑ k', u k' * u k')) E)

/-- Scaling by division, the sum of squares as it is. -/
def unitDiv' (E : EReal) (u : Fin 128 → EReal) (k : Fin 128) : EReal :=
  Ideal.div (u k) (max (Ideal.sqrt (∑ k', u k' * u k')) E)

/-- Scaling by the reciprocal square root of the floored sum of squares, each square times `one`. -/
def unitRsqrt (one E2 : EReal) (u : Fin 128 → EReal) (k : Fin 128) : EReal :=
  u k * Ideal.rsqrt (max (∑ k', u k' * u k' * one) E2)

/-- Inner products with bank rows already multiplied by `c`. -/
def logitMul (c : EReal) (u : Fin 128 → EReal) (b : Fin 64 → Fin 128 → EReal) (j : Fin 64) : EReal :=
  ∑ k', u k' * (b j k' * c)

/-- Inner products divided by `D`. -/
def logitDiv (D : EReal) (u : Fin 128 → EReal) (b : Fin 64 → Fin 128 → EReal) (j : Fin 64) : EReal :=
  Ideal.div (∑ k', u k' * b j k') D

/-- Softmax with no shift. -/
def softPlain (s : Fin 64 → EReal) (j : Fin 64) : EReal := Ideal.div (Ideal.exp (s j)) (∑ j', Ideal.exp (s j'))

/-- Softmax with every logit shifted by `M`, the sum started from `z`. -/
def softShift (z M : EReal) (s : Fin 64 → EReal) (j : Fin 64) : EReal :=
  Ideal.div (Ideal.exp (s j - M)) (z + ∑ j', Ideal.exp (s j' - M))

/-- A row plus a weighted mixture of bank rows. -/
def mix (u : Fin 128 → EReal) (a : Fin 64 → EReal) (b : Fin 64 → Fin 128 → EReal) (k : Fin 128) : EReal :=
  u k + ∑ j, a j * b j k

/-! ## Each piece on real inputs -/

theorem unitDiv_coe {e : ℝ} (he : 0 < e) (v : Fin 128 → ℝ) :
    unitDiv 0 (e : EReal) (fun k => (v k : EReal)) = fun k => ((unitRow e v k : ℝ) : EReal) := by
  funext k
  have h0 : (0 : ℝ) ≤ ∑ k', v k' * v k' := Finset.sum_nonneg fun i _ => mul_self_nonneg _
  unfold unitDiv unitRow floorNorm
  simp only [← EReal.coe_mul, coe_sum, zero_add]
  rw [sqrt_coe_nonneg _ h0, coe_max, div_coe_coe _ _ (lt_max_of_lt_right he).ne']

theorem unitDiv'_coe {e : ℝ} (he : 0 < e) (v : Fin 128 → ℝ) :
    unitDiv' (e : EReal) (fun k => (v k : EReal)) = fun k => ((unitRow e v k : ℝ) : EReal) := by
  funext k
  have h0 : (0 : ℝ) ≤ ∑ k', v k' * v k' := Finset.sum_nonneg fun i _ => mul_self_nonneg _
  unfold unitDiv' unitRow floorNorm
  simp only [← EReal.coe_mul, coe_sum]
  rw [sqrt_coe_nonneg _ h0, coe_max, div_coe_coe _ _ (lt_max_of_lt_right he).ne']

theorem unitRsqrt_coe {e : ℝ} (he : 0 < e) (v : Fin 128 → ℝ) :
    unitRsqrt 1 ((e * e : ℝ) : EReal) (fun k => (v k : EReal)) = fun k => ((unitRow e v k : ℝ) : EReal) := by
  funext k
  have h0 : (0 : ℝ) ≤ ∑ k', v k' * v k' := Finset.sum_nonneg fun i _ => mul_self_nonneg _
  have hpos : 0 < max (∑ k', v k' * v k') (e * e) := lt_max_of_lt_right (mul_pos he he)
  have hsq : Real.sqrt (max (∑ k', v k' * v k') (e * e)) = max (Real.sqrt (∑ k', v k' * v k')) e := by
    rw [Real.sqrt_monotone.map_max, Real.sqrt_mul_self he.le]
  unfold unitRsqrt unitRow floorNorm
  simp only [mul_one, ← EReal.coe_mul, coe_sum]
  rw [coe_max, rsqrt_coe_pos _ hpos, ← EReal.coe_mul, hsq, div_eq_mul_inv]

theorem logitMul_coe {d : ℝ} (u : Fin 128 → ℝ) (b : Fin 64 → Fin 128 → ℝ) :
    logitMul ((1 / d : ℝ) : EReal) (fun k => (u k : EReal)) (fun j k => (b j k : EReal))
      = fun j => ((logits d u b j : ℝ) : EReal) := by
  funext j
  unfold logitMul logits
  simp only [← EReal.coe_mul, coe_sum]
  rw [Finset.sum_div]
  exact congrArg _ (Finset.sum_congr rfl fun k _ => by rw [← mul_assoc, mul_one_div])

theorem logitDiv_coe {d : ℝ} (hd : d ≠ 0) (u : Fin 128 → ℝ) (b : Fin 64 → Fin 128 → ℝ) :
    logitDiv (d : EReal) (fun k => (u k : EReal)) (fun j k => (b j k : EReal))
      = fun j => ((logits d u b j : ℝ) : EReal) := by
  funext j
  unfold logitDiv logits
  simp only [← EReal.coe_mul, coe_sum]
  rw [div_coe_coe _ _ hd]

theorem softPlain_coe (s : Fin 64 → ℝ) :
    softPlain (fun j => (s j : EReal)) = fun j => ((weights s j : ℝ) : EReal) := by
  funext j
  unfold softPlain weights
  simp only [Ideal.exp_coe, coe_sum]
  rw [div_coe_coe _ _ (sum_exp_pos s).ne']

theorem softShift_coe (s : Fin 64 → ℝ) (m : ℝ) :
    softShift 0 (m : EReal) (fun j => (s j : EReal)) = fun j => ((weights s j : ℝ) : EReal) := by
  funext j
  unfold softShift weights
  simp only [← EReal.coe_sub, Ideal.exp_coe, coe_sum, zero_add]
  rw [div_coe_coe _ _ (sum_exp_pos fun j' => s j' - m).ne']
  congr 1
  simp only [Real.exp_sub]
  rw [← Finset.sum_div, div_div_div_cancel_right₀ (Real.exp_pos m).ne']

theorem mix_coe (u : Fin 128 → ℝ) (a : Fin 64 → ℝ) (b : Fin 64 → Fin 128 → ℝ) :
    mix (fun k => (u k : EReal)) (fun j => (a j : EReal)) (fun j k => (b j k : EReal))
      = fun k => ((mixR u a b k : ℝ) : EReal) := by
  funext k
  unfold mix mixR
  simp only [← EReal.coe_mul, coe_sum, ← EReal.coe_add]

/-! ## The two spellings of the row -/

/-- The row by reciprocal square root, pre-scaled bank and plain softmax. -/
def rowMul (one E E2 c : EReal) (u : Fin 128 → EReal) (B : Fin 64 → Fin 128 → EReal) : Fin 128 → EReal :=
  mix (unitRsqrt one E2 u) (softPlain (logitMul c (unitRsqrt one E2 u) fun j => unitDiv' E (B j))) fun j => unitDiv' E (B j)

/-- The row by division, quotient logits and shifted softmax; `shift` computes the shift from the logits. -/
def rowDiv (z E D : EReal) (shift : (Fin 64 → EReal) → EReal) (u : Fin 128 → EReal) (B : Fin 64 → Fin 128 → EReal) :
    Fin 128 → EReal :=
  mix (unitDiv z E u)
    (softShift z (shift (logitDiv D (unitDiv z E u) fun j => unitDiv z E (B j)))
      (logitDiv D (unitDiv z E u) fun j => unitDiv z E (B j)))
    fun j => unitDiv z E (B j)

theorem rowMul_coe {e d : ℝ} (he : 0 < e) (x : Fin 128 → ℝ) (B : Fin 64 → Fin 128 → ℝ) :
    rowMul 1 (e : EReal) ((e * e : ℝ) : EReal) ((1 / d : ℝ) : EReal) (fun k => (x k : EReal)) (fun j k => (B j k : EReal))
      = fun k => ((enhanced e d x B k : ℝ) : EReal) := by
  unfold rowMul enhanced
  simp only [unitRsqrt_coe he, unitDiv'_coe he]
  rw [logitMul_coe, softPlain_coe, mix_coe]

theorem rowDiv_coe {e d : ℝ} (he : 0 < e) (hd : d ≠ 0) (shift : (Fin 64 → EReal) → EReal)
    (hshift : ∀ s : Fin 64 → ℝ, ∃ m : ℝ, shift (fun j => (s j : EReal)) = (m : EReal))
    (x : Fin 128 → ℝ) (B : Fin 64 → Fin 128 → ℝ) :
    rowDiv 0 (e : EReal) (d : EReal) shift (fun k => (x k : EReal)) (fun j k => (B j k : EReal))
      = fun k => ((enhanced e d x B k : ℝ) : EReal) := by
  unfold rowDiv enhanced
  simp only [unitDiv_coe he]
  rw [logitDiv_coe hd]
  obtain ⟨m, hm⟩ := hshift (logits d (unitRow e x) fun j => unitRow e (B j))
  rw [hm, softShift_coe, mix_coe]

/-! ## The shift a stable softmax subtracts -/

/-- The shift: the largest of the 64 logits, folded from `n2` and floored at `n1` (both minus infinity in use). -/
def rowShift (n1 n2 : EReal) (s : Fin 64 → EReal) : EReal :=
  max n1 ((Finset.univ : Finset (Fin 64)).fold max n2 s)

/-- The largest of 64 real logits is a real number. -/
theorem rowShift_real (s : Fin 64 → ℝ) : ∃ m : ℝ, rowShift ⊥ ⊥ (fun j => (s j : EReal)) = (m : EReal) := by
  unfold rowShift
  rw [max_eq_right bot_le]
  have hlo : ((s 0 : ℝ) : EReal) ≤ (Finset.univ : Finset (Fin 64)).fold max ⊥ (fun j => (s j : EReal)) :=
    (Finset.le_fold_max _).2 (Or.inr ⟨0, Finset.mem_univ _, le_rfl⟩)
  have hhi : (Finset.univ : Finset (Fin 64)).fold max ⊥ (fun j => (s j : EReal)) < ⊤ :=
    (Finset.fold_max_lt _).2 ⟨bot_lt_top, fun x _ => EReal.coe_lt_top _⟩
  exact ⟨_, (EReal.coe_toReal hhi.ne (ne_of_gt (lt_of_lt_of_le (EReal.bot_lt_coe _) hlo))).symm⟩

end Cert.RowMath

end
-- ==== Proof.VecRead.lean ====
/-
  Three layout steps of a row reduction kept as a column, read at an index: the lane sum of an [a, b] array at row `j`
  is the sum over that row; the [a] result viewed as an [a, 1] column reads row `j` at `(j, 0)`; the column
  broadcast back to [a, b] reads `(j, 0)` at every `(j, k)`.
-/
import Idealize.ShloMosaic.Lib.ValueIdx
import Idealize.ShloMosaic.Lib.Pipeline.Value
import Idealize.ShloMosaic.PureOps.Ideal.Laws

noncomputable section

namespace Cert.VecRead

open Idealize.ShloMosaic Idealize.ShloMosaic.ValueIdx
open scoped BigOperators

/-- An [a] vector viewed as an [a, 1] column keeps entry `j` at `(j, 0)`. -/
theorem shapeCast_col_apply {α : Type} {a : Nat} (v : (⟨1, ![a]⟩ : Shape).Idx → α)
    (h : (⟨1, ![a]⟩ : Shape).ShapeCasts ⟨2, ![a, 1]⟩) (j : Fin a) :
    shapeCast ⟨2, ![a, 1]⟩ v h (ix2 j (0 : Fin 1)) = v (ix1 j) :=
  shapeCast_apply v h (ix2 j (0 : Fin 1)) (ix1 j) (by
    rw [Shape.rowMajor_val_one, Shape.rowMajor_val_two]
    show j.val = j.val * 1 + 0
    omega)

/-- An [a, 1] column broadcast along the second axis reads its row's entry everywhere on the row. -/
theorem broadcastTo_col_apply {α : Type} {a b : Nat} (ha : a ≠ 1) (w : (⟨2, ![a, 1]⟩ : Shape).Idx → α)
    (h : (⟨2, ![a, 1]⟩ : Shape).Broadcasts ⟨2, ![a, b]⟩) (j : Fin a) (k : Fin b) :
    broadcastTo ⟨2, ![a, b]⟩ w h (ix2 j k) = w (ix2 j (0 : Fin 1)) :=
  broadcastTo_apply w h (ix2 j k) (ix2 j (0 : Fin 1)) (fun x => match x with
    | ⟨0, _⟩ => by show j.val = if a = 1 then 0 else j.val; rw [if_neg ha]
    | ⟨1, _⟩ => by show 0 = if (1 : Nat) = 1 then 0 else k.val; rw [if_pos rfl])

/-- The sum along the second axis of an [a, b] array of extended reals, at row `j`, is the sum of that row. -/
theorem lane_sum_apply {a b : Nat} (src : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (j : Fin a) :
    multiReduction .add [1] ⟨1, ![a]⟩ src 0x00000000#32 h hφ hacc (ix1 j) = ∑ k : Fin b, src (ix2 j k) :=
  (Ideal.multiReduction_add_single src _ h hφ hacc (ix1 j)).trans
    (Finset.sum_congr rfl fun k _ => congrArg src (funext fun x => Fin.ext (by
      match x with
      | ⟨0, _⟩ => rfl
      | ⟨1, _⟩ => rfl)))

end Cert.VecRead

end
-- ==== Proof.KernelDots.lean ====
/-
  The body's three matrix products read at an element. Each contracts the second axis of its left operand with the
  first axis of its right operand into a zero accumulator, so at `(r, c)` it is the sum over `k` of
  `lhs (r, k) * rhs (k, c)`: the contraction index has one axis, which is identified with `k`, and the operand
  indices are computed axis by axis.
-/
import proofs.«160728_g85598698209303_cont_9to1_m_192_21_alg».proof.Proof.Gen.KernelIdeal
import Idealize.ShloMosaic.Lib.ValueIdx
import Idealize.ShloMosaic.PureOps.Ideal.Laws

noncomputable section

namespace Cert.KernelDots

open Idealize.ShloMosaic Idealize.ShloMosaic.ValueIdx Cert.KernelIdeal Cert.KernelIdeal.Gen
open scoped BigOperators

/-! ### Rows times the all-ones matrix: [16384, 128] by [128, 128] -/

theorem lhsA_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhsA_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhsA_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhsA_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

theorem dotA_apply (lhs : FVec Ideal S16384x128 .f32) (rhs : FVec Ideal S128x128 .f32) (r : Fin 16384) (c : Fin 128) :
    matmul dot_S16384x128_S128x128_S16384x128_1_0_0_1_n_n none lhs rhs (constant S16384x128 .f32 0x00000000#32) (ix2 r c)
      = ∑ k : Fin 128, lhs (ix2 r k) * rhs (ix2 k c) := by
  refine (Ideal.matmul_constant_zero_apply dot_S16384x128_S128x128_S16384x128_1_0_0_1_n_n none lhs rhs (ix2 r c)).trans ?_
  rw [← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r c) ((contrEquiv1 dot_S16384x128_S128x128_S16384x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S16384x128_S128x128_S16384x128_1_0_0_1_n_n.rhsIdx (ix2 r c) ((contrEquiv1 dot_S16384x128_S128x128_S16384x128_1_0_0_1_n_n 128 rfl rfl).symm k) = ix2 k c := funext fun a => Fin.ext (by
    match a with
    | ⟨0, _⟩ => exact (rhsA_0 _ _).trans hk
    | ⟨1, _⟩ => exact rhsA_1 _ _)
  rw [el, er]

/-! ### Rows times the transposed bank: [16384, 128] by [128, 64] -/

theorem lhsB_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhsB_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhsB_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhsB_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl

theorem dotB_apply (lhs : FVec Ideal S16384x128 .f32) (rhs : FVec Ideal S128x64 .f32) (r : Fin 16384) (c : Fin 64) :
    matmul dot_S16384x128_S128x64_S16384x64_1_0_0_1_n_n none lhs rhs (constant S16384x64 .f32 0x00000000#32) (ix2 r c)
      = ∑ k : Fin 128, lhs (ix2 r k) * rhs (ix2 k c) := by
  refine (Ideal.matmul_constant_zero_apply dot_S16384x128_S128x64_S16384x64_1_0_0_1_n_n none lhs rhs (ix2 r c)).trans ?_
  rw [← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r c) ((contrEquiv1 dot_S16384x128_S128x64_S16384x64_1_0_0_1_n_n 128 rfl rfl).symm k) = ix2 r k := funext fun a => Fin.ext (by
    match a with
    | ⟨0, _⟩ => exact lhsB_0 _ _
    | ⟨1, _⟩ => exact (lhsB_1 _ _).trans hk)
  have er : dot_S16384x128_S128x64_S16384x64_1_0_0_1_n_n.rhsIdx (ix2 r c) ((contrEquiv1 dot_S16384x128_S128x64_S16384x64_1_0_0_1_n_n 128 rfl rfl).symm k) = ix2 k c := funext fun a => Fin.ext (by
    match a with
    | ⟨0, _⟩ => exact (rhsB_0 _ _).trans hk
    | ⟨1, _⟩ => exact rhsB_1 _ _)
  rw [el, er]

/-! ### Weights times the bank: [16384, 64] by [64, 128] -/

theorem lhsC_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
theorem lhsC_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhsC_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhsC_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl

theorem dotC_apply (lhs : FVec Ideal S16384x64 .f32) (rhs : FVec Ideal S64x128 .f32) (r : Fin 16384) (c : Fin 128) :
    matmul dot_S16384x64_S64x128_S16384x128_1_0_0_1_n_n none lhs rhs (constant S16384x128 .f32 0x00000000#32) (ix2 r c)
      = ∑ k : Fin 64, lhs (ix2 r k) * rhs (ix2 k c) := by
  refine (Ideal.matmul_constant_zero_apply dot_S16384x64_S64x128_S16384x128_1_0_0_1_n_n none lhs rhs (ix2 r c)).trans ?_
  rw [← Equiv.sum_comp (contrEquiv1 dot_S16384x64_S64x128_S16384x128_1_0_0_1_n_n 64 rfl rfl).symm]
  refine Finset.sum_congr rfl fun k _ => ?_
  have hk := contrEquiv1_symm_val dot_S16384x64_S64x128_S16384x128_1_0_0_1_n_n 64 rfl rfl k
  have el : dot_S16384x64_S64x128_S16384x128_1_0_0_1_n_n.lhsIdx (ix2 r c) ((contrEquiv1 dot_S16384x64_S64x128_S16384x128_1_0_0_1_n_n 64 rfl rfl).symm k) = ix2 r k := funext fun a => Fin.ext (by
    match a with
    | ⟨0, _⟩ => exact lhsC_0 _ _
    | ⟨1, _⟩ => exact (lhsC_1 _ _).trans hk)
  have er : dot_S16384x64_S64x128_S16384x128_1_0_0_1_n_n.rhsIdx (ix2 r c) ((contrEquiv1 dot_S16384x64_S64x128_S16384x128_1_0_0_1_n_n 64 rfl rfl).symm k) = ix2 k c := funext fun a => Fin.ext (by
    match a with
    | ⟨0, _⟩ => exact (rhsC_0 _ _).trans hk
    | ⟨1, _⟩ => exact rhsC_1 _ _)
  rw [el, er]

end Cert.KernelDots

end
-- ==== Proof.KernelRow.lean ====
/-
  The kernel body's stored value, read at one element.

  The body flattens its [4, 4096, 128] block of tokens to 16384 rows of 128 lanes. Row `r = p * 4096 + q` is token
  `(p, q)` of the block. Every operation of the body acts on a row by itself: the sum of squares (a product with an
  all-ones matrix, which lands the sum on every lane), the reciprocal square root of its floor, the inner products with
  the scaled bank rows times the reciprocal temperature, the exponentials, their lane sum, the quotient, and the
  mixture of bank rows. So the stored value at `(p, q, k)` is the row function `rowMul` of token `(p, q)`'s row and
  the bank, at lane `k`.
-/
import proofs.«160728_g85598698209303_cont_9to1_m_192_21_alg».proof.Proof.Gen.KernelIdeal.Skeleton
import proofs.«160728_g85598698209303_cont_9to1_m_192_21_alg».proof.Proof.RowMath
import proofs.«160728_g85598698209303_cont_9to1_m_192_21_alg».proof.Proof.VecRead
import proofs.«160728_g85598698209303_cont_9to1_m_192_21_alg».proof.Proof.KernelDots
import Idealize.ShloMosaic.Lib.ValueIdx
import Idealize.ShloMosaic.Lib.Pipeline.Value
import Idealize.ShloMosaic.PureOps.Ideal.Laws

noncomputable section

namespace Cert.KernelRow

open Idealize.ShloMosaic Idealize.ShloMosaic.ValueIdx Cert.KernelIdeal Cert.KernelIdeal.Gen Cert.RowMath Cert.VecRead Cert.KernelDots
open scoped BigOperators

/-! ## The constants as the body spells them -/

/-- The norm floor `e`. -/
abbrev cE : EReal := Ideal.ofBits .f32 0x2B8CBCCC#32
/-- The entries of the all-ones matrix. -/
abbrev cOne : EReal := Ideal.ofBits .f32 0x3F800000#32
/-- The floor under the sum of squares, named `e²`. -/
abbrev cE2 : EReal := Named.named (F := Ideal) κ "eps_squared" (φ := .f32) 0x179ABE15#32
/-- The factor on the bank, named `1/d`. -/
abbrev cInv : EReal := Named.named (F := Ideal) κ "inv_temperature" (φ := .f32) 0x41649249#32

/-! ## The body's stages -/

/-- The bank with every row scaled. -/
def bankV (v2 : FVec Ideal S64x128 .f32) : FVec Ideal S64x128 .f32 :=
  divf v2 (broadcastTo S64x128 (maximumf (sqrt (shapeCast S64x1
    (multiReduction .add [1] S64 (mulf v2 v2) 0x00000000#32 reduces_S64x128_S64 (.inl rfl) rfl) shapeCasts_S64_S64x1))
    (broadcast S64x1 (Scalar.ofBits .f32 0x2B8CBCCC#32))) broadcasts_S64x1_S64x128)

/-- The sum of squares of each row, on every lane of the row. -/
def sumsqV (v1 : FVec Ideal S16384x128 .f32) : FVec Ideal S16384x128 .f32 :=
  matmul dot_S16384x128_S128x128_S16384x128_1_0_0_1_n_n none (mulf v1 v1) (broadcast S128x128 (Scalar.ofBits .f32 0x3F800000#32))
    (constant S16384x128 .f32 0x00000000#32)

/-- The rows scaled. -/
def scaledV (v1 : FVec Ideal S16384x128 .f32) : FVec Ideal S16384x128 .f32 :=
  mulf v1 (rsqrt (maximumf (sumsqV v1) (broadcast S16384x128 (Named.named κ "eps_squared" 0x179ABE15#32))))

/-- The logits. -/
def logitV (v17 : FVec Ideal S16384x128 .f32) (v10 : FVec Ideal S64x128 .f32) : FVec Ideal S16384x64 .f32 :=
  matmul dot_S16384x128_S128x64_S16384x64_1_0_0_1_n_n none v17
    (mulf (transpose S128x64 [1, 0] v10 transposes_S64x128_p1_0_S128x64) (broadcast S128x64 (Named.named κ "inv_temperature" 0x41649249#32)))
    (constant S16384x64 .f32 0x00000000#32)

/-- The attention weights. -/
def softV (v21 : FVec Ideal S16384x64 .f32) : FVec Ideal S16384x64 .f32 :=
  divf (exp v21) (broadcastTo S16384x64 (shapeCast S16384x1
    (multiReduction .add [1] S16384 (exp v21) 0x00000000#32 reduces_S16384x64_S16384 (.inl rfl) rfl) shapeCasts_S16384_S16384x1)
    broadcasts_S16384x1_S16384x64)

/-- The scaled rows plus the retrieved mixtures. -/
def outV (v17 : FVec Ideal S16384x128 .f32) (v26 : FVec Ideal S16384x64 .f32) (v10 : FVec Ideal S64x128 .f32) :
    FVec Ideal S16384x128 .f32 :=
  addf v17 (matmul dot_S16384x64_S64x128_S16384x128_1_0_0_1_n_n none v26 v10 (constant S16384x128 .f32 0x00000000#32))

/-- The stored value is the composition of the stages, reshaped back to the block. -/
theorem pay_eq (v0 : FVec Ideal S4x4096x128 .f32) (v2 : FVec Ideal S64x128 .f32) :
    k0_pay1 (F := Ideal) v0 v2
      = shapeCast S4x4096x128
          (outV (scaledV (shapeCast S16384x128 v0 shapeCasts_S4x4096x128_S16384x128))
            (softV (logitV (scaledV (shapeCast S16384x128 v0 shapeCasts_S4x4096x128_S16384x128)) (bankV v2))) (bankV v2))
          shapeCasts_S16384x128_S4x4096x128 := rfl

/-! ## The stages read at an element -/

/-- A bank entry is its row's entry over the row's floored norm. -/
theorem bankV_apply (v2 : FVec Ideal S64x128 .f32) (j : Fin 64) (k : Fin 128) :
    bankV v2 (ix2 j k) = unitDiv' cE (fun k' => v2 (ix2 j k')) k := by
  unfold bankV unitDiv'
  rw [divf_apply]
  refine congrArg (Ideal.div (v2 (ix2 j k))) ?_
  refine (broadcastTo_col_apply (by decide) _ _ j k).trans ?_
  refine congrArg (fun z => max (Ideal.sqrt z) cE) ?_
  refine (shapeCast_col_apply _ _ j).trans ?_
  exact lane_sum_apply _ _ _ _ j

/-- The product with the all-ones matrix puts the row's sum of squares on every lane. -/
theorem sumsqV_apply (v1 : FVec Ideal S16384x128 .f32) (r : Fin 16384) (k : Fin 128) :
    sumsqV v1 (ix2 r k) = ∑ k' : Fin 128, v1 (ix2 r k') * v1 (ix2 r k') * cOne := by
  unfold sumsqV
  exact dotA_apply _ _ r k

/-- A scaled entry is the entry times the reciprocal square root of the row's floored sum of squares. -/
theorem scaledV_apply (v1 : FVec Ideal S16384x128 .f32) (r : Fin 16384) (k : Fin 128) :
    scaledV v1 (ix2 r k) = unitRsqrt cOne cE2 (fun k' => v1 (ix2 r k')) k := by
  unfold scaledV unitRsqrt
  rw [mulf_apply]
  refine congrArg (fun z => v1 (ix2 r k) * Ideal.rsqrt (max z cE2)) ?_
  exact sumsqV_apply v1 r k

/-- A logit is the inner product of the row with a bank row already multiplied by the reciprocal temperature. -/
theorem logitV_apply (v17 : FVec Ideal S16384x128 .f32) (v10 : FVec Ideal S64x128 .f32) (r : Fin 16384) (j : Fin 64) :
    logitV v17 v10 (ix2 r j) = logitMul cInv (fun k' => v17 (ix2 r k')) (fun j' k' => v10 (ix2 j' k')) j := by
  unfold logitV logitMul
  refine (dotB_apply _ _ r j).trans ?_
  refine Finset.sum_congr rfl fun k' _ => ?_
  refine congrArg (fun z => v17 (ix2 r k') * (z * cInv)) ?_
  exact transpose_apply [1, 0] v10 transposes_S64x128_p1_0_S128x64 (ix2 k' j) (ix2 j k') (fun b => match b with
    | ⟨0, _⟩ => rfl
    | ⟨1, _⟩ => rfl)

/-- A weight is the exponential of its logit over the sum of the row's exponentials. -/
theorem softV_apply (v21 : FVec Ideal S16384x64 .f32) (r : Fin 16384) (j : Fin 64) :
    softV v21 (ix2 r j) = softPlain (fun j' => v21 (ix2 r j')) j := by
  unfold softV softPlain
  rw [divf_apply]
  refine congrArg (Ideal.div (Ideal.exp (v21 (ix2 r j)))) ?_
  refine (broadcastTo_col_apply (by decide) _ _ r j).trans ?_
  refine (shapeCast_col_apply _ _ r).trans ?_
  exact lane_sum_apply _ _ _ _ r

/-- The result is the scaled entry plus the weights' mixture of the bank column. -/
theorem outV_apply (v17 : FVec Ideal S16384x128 .f32) (v26 : FVec Ideal S16384x64 .f32) (v10 : FVec Ideal S64x128 .f32)
    (r : Fin 16384) (k : Fin 128) :
    outV v17 v26 v10 (ix2 r k)
      = mix (fun k' => v17 (ix2 r k')) (fun j => v26 (ix2 r j)) (fun j k' => v10 (ix2 j k')) k := by
  unfold outV mix
  rw [addf_apply]
  exact congrArg (v17 (ix2 r k) + ·) (dotC_apply _ _ r k)

/-! ## The stored value at an element of the block -/

/-- At token `(p, q)` of the block and lane `k` the body stores the row function of that token's 128 entries and the
    bank. -/
theorem pay_apply (v0 : FVec Ideal S4x4096x128 .f32) (v2 : FVec Ideal S64x128 .f32) (p : Fin 4) (q : Fin 4096) (k : Fin 128) :
    k0_pay1 (F := Ideal) v0 v2 (ix3 p q k)
      = rowMul cOne cE cE2 cInv (fun k' => v0 (ix3 p q k')) (fun j k' => v2 (ix2 j k')) k := by
  have hr : p.val * 4096 + q.val < 16384 := by have := p.isLt; have := q.isLt; omega
  have hrow : ∀ k' : Fin 128, shapeCast S16384x128 v0 shapeCasts_S4x4096x128_S16384x128 (ix2 (⟨p.val * 4096 + q.val, hr⟩ : Fin 16384) k')
      = v0 (ix3 p q k') := fun k' =>
    shapeCast_apply v0 shapeCasts_S4x4096x128_S16384x128 (ix2 (⟨p.val * 4096 + q.val, hr⟩ : Fin 16384) k') (ix3 p q k') (by
      rw [Shape.rowMajor_val_three, Shape.rowMajor_val_two]; rfl)
  have h1 : (fun k' => scaledV (shapeCast S16384x128 v0 shapeCasts_S4x4096x128_S16384x128) (ix2 (⟨p.val * 4096 + q.val, hr⟩ : Fin 16384) k'))
      = unitRsqrt cOne cE2 (fun k' => v0 (ix3 p q k')) := funext fun k' => by
    rw [scaledV_apply]; simp only [hrow]
  have h2 : (fun j k' => bankV v2 (ix2 j k')) = fun j => unitDiv' cE (fun k' => v2 (ix2 j k')) :=
    funext fun j => funext fun k' => bankV_apply v2 j k'
  rw [pay_eq]
  refine (shapeCast_apply _ shapeCasts_S16384x128_S4x4096x128 (ix3 p q k) (ix2 (⟨p.val * 4096 + q.val, hr⟩ : Fin 16384) k) (by
    rw [Shape.rowMajor_val_two, Shape.rowMajor_val_three]; rfl)).trans ?_
  rw [outV_apply, h1, h2]
  unfold rowMul
  refine congrArg (fun a => mix _ a _ k) (funext fun j => ?_)
  refine (softV_apply _ _ j).trans (congrArg (fun s => softPlain s j) (funext fun j' => ?_))
  refine (logitV_apply _ _ _ j').trans ?_
  rw [h1, h2]

end Cert.KernelRow

end
-- ==== Proof.KernelArr.lean ====
/-
  From the blocks to the whole result array of the kernel.

  Grid point `t` of four handles tokens `4 t … 4 t + 3` of the 16 batches: its input block is rows
  `(4 t + p, q, ·)` of the features, the bank is fetched whole, and the block it writes back lands on the same rows
  of the result. What it writes at `(p, q, k)` is the row function of token `(4 t + p, q)` at lane `k`, that is the
  block of ONE whole-array function `G`; the four blocks tile the array, so the array ends equal to `G`.
-/
import proofs.«160728_g85598698209303_cont_9to1_m_192_21_alg».proof.Proof.Gen.KernelIdeal.Value
import proofs.«160728_g85598698209303_cont_9to1_m_192_21_alg».proof.Proof.KernelRow
import Idealize.ShloMosaic.Lib.Pipeline.Value

set_option maxRecDepth 16384

noncomputable section

namespace Cert.KernelArr

open Cert.KernelIdeal Cert.KernelIdeal.Gen Idealize.ShloMosaic Idealize.ShloMosaic.TcCoe Idealize.SL.Sem
open Idealize.ShloMosaic.ValueIdx Cert.RowMath Cert.KernelRow
open Idealize.ShloMosaic.Pipeline (Dat)

variable (m : (ℓ : Loc nD τ sig) → Buf (Elt Ideal) ℓ) (ρ : Dev nD → PrngReg)

/-- The result array as one function of the two argument arrays: at `(b, s, k)` the row function of token
    `(b, s)`'s 128 features and the bank, at lane `k`. -/
def G (X : S16x4096x128.Idx → Elt Ideal .f32) (M : S64x128.Idx → Elt Ideal .f32) : S16x4096x128.Idx → Elt Ideal .f32 :=
  fun i => rowMul cOne cE cE2 cInv
    (fun k' => X (ix3 (⟨(i 0).val, (i 0).isLt⟩ : Fin 16) (⟨(i 1).val, (i 1).isLt⟩ : Fin 4096) k'))
    (fun j k' => M (ix2 j k')) (⟨(i 2).val, (i 2).isLt⟩ : Fin 128)

/-- One stored element against one element of `G`: the block entry `y` and the array entry `i` agree as soon as the
    token's row, the bank and the lane do. -/
theorem point_eq (x0 : FVec Ideal S4x4096x128 .f32) (x1 : FVec Ideal S64x128 .f32)
    (X : S16x4096x128.Idx → Elt Ideal .f32) (M : S64x128.Idx → Elt Ideal .f32)
    (y : S4x4096x128.Idx) (i : S16x4096x128.Idx)
    (h0 : ∀ k' : Fin 128, x0 (ix3 (⟨(y 0).val, (y 0).isLt⟩ : Fin 4) (⟨(y 1).val, (y 1).isLt⟩ : Fin 4096) k')
      = X (ix3 (⟨(i 0).val, (i 0).isLt⟩ : Fin 16) (⟨(i 1).val, (i 1).isLt⟩ : Fin 4096) k'))
    (h1 : ∀ (j : Fin 64) (k' : Fin 128), x1 (ix2 j k') = M (ix2 j k'))
    (h2 : (i 2).val = (y 2).val) :
    k0_pay1 (F := Ideal) x0 x1 y = G X M i := by
  have hy : y = ix3 (⟨(y 0).val, (y 0).isLt⟩ : Fin 4) (⟨(y 1).val, (y 1).isLt⟩ : Fin 4096) (⟨(y 2).val, (y 2).isLt⟩ : Fin 128) :=
    funext fun a => Fin.ext (by
      match a with
      | ⟨0, _⟩ => rfl
      | ⟨1, _⟩ => rfl
      | ⟨2, _⟩ => rfl)
  refine ((congrArg (k0_pay1 (F := Ideal) x0 x1) hy).trans (pay_apply x0 x1 _ _ _)).trans ?_
  have e0 : (fun k' : Fin 128 => x0 (ix3 (⟨(y 0).val, (y 0).isLt⟩ : Fin 4) (⟨(y 1).val, (y 1).isLt⟩ : Fin 4096) k'))
      = fun k' => X (ix3 (⟨(i 0).val, (i 0).isLt⟩ : Fin 16) (⟨(i 1).val, (i 1).isLt⟩ : Fin 4096) k') := funext h0
  have e1 : (fun (j : Fin 64) (k' : Fin 128) => x1 (ix2 j k')) = fun j k' => M (ix2 j k') :=
    funext fun j => funext fun k' => h1 j k'
  have e2 : (⟨(y 2).val, (y 2).isLt⟩ : Fin 128) = ⟨(i 2).val, (i 2).isLt⟩ := Fin.ext h2.symm
  rw [e0, e1, e2]
  rfl

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the four grid points: the features' block moves with the result's along the batch axis, every
    other block index is zero, and the batch block index stays below four. -/
theorem idx_facts : ∀ t : Fin cfg0.N, win0_0.index t (0 : Fin 3) = win0_2.index t (0 : Fin 3)
    ∧ win0_0.index t (1 : Fin 3) = 0 ∧ win0_0.index t (2 : Fin 3) = 0
    ∧ win0_2.index t (1 : Fin 3) = 0 ∧ win0_2.index t (2 : Fin 3) = 0
    ∧ win0_1.index t (0 : Fin 2) = 0 ∧ win0_1.index t (1 : Fin 2) = 0
    ∧ win0_2.index t (0 : Fin 3) ≤ 3 :=
  (by decide +kernel : ∀ t : Fin grid0.N, _)

/-- Every batch block is some grid point's. -/
theorem idx_onto : ∀ q0 : Fin 4, ∃ t : Fin cfg0.N, win0_2.index t (0 : Fin 3) = q0.val :=
  (by decide +kernel : ∀ q0 : Fin 4, ∃ t : Fin grid0.N, win0_2.index t (0 : Fin 3) = q0.val)

/-- What grid point `t` writes back is block `t` of `G` of the argument arrays. -/
theorem flushed_eq (c : Dev nD) (t : Fin cfg0.N) :
    (dats m 0 c).flushed 2 t = ((cfg0.win 2).blk t).view.read (Elt Ideal) (G (V m c main_arg0) (V m c main_arg1)) := by
  rw [Cert.KernelIdeal.Value.flushed2]
  unfold out0_2
  rw [View.canon_unit_zero hz3]
  simp only [View.ld_unit_zero (S := S4x4096x128) hz3, View.ld_unit_zero (S := S64x128) hz2]
  obtain ⟨e0, e1, e2, e3, e4, e5, e6, e7⟩ := idx_facts t
  funext y
  show k0_pay1 (F := Ideal) (iblk m c 0 t) (iblk m c 1 t) y
    = G (V m c main_arg0) (V m c main_arg1) (((cfg0.win 2).blk t).view.emb y)
  refine point_eq (iblk m c 0 t) (iblk m c 1 t) (V m c main_arg0) (V m c main_arg1) y (((cfg0.win 2).blk t).view.emb y) ?_ ?_ ?_
  · intro k'
    show V m c main_arg0 (((cfg0.win 0).blk t).view.emb (ix3 (⟨(y 0).val, (y 0).isLt⟩ : Fin 4) (⟨(y 1).val, (y 1).isLt⟩ : Fin 4096) k')) = _
    refine congrArg (V m c main_arg0) (funext fun a => Fin.ext ?_)
    match a with
    | ⟨0, _⟩ =>
      show win0_0.index t (0 : Fin 3) * 4 + 1 * (y 0).val = win0_2.index t (0 : Fin 3) * 4 + 1 * (y 0).val
      omega
    | ⟨1, _⟩ =>
      show win0_0.index t (1 : Fin 3) * 4096 + 1 * (y 1).val = win0_2.index t (1 : Fin 3) * 4096 + 1 * (y 1).val
      omega
    | ⟨2, _⟩ =>
      show win0_0.index t (2 : Fin 3) * 128 + 1 * k'.val = k'.val
      omega
  · intro j k'
    show V m c main_arg1 (((cfg0.win 1).blk t).view.emb (ix2 j k')) = _
    refine congrArg (V m c main_arg1) (funext fun a => Fin.ext ?_)
    match a with
    | ⟨0, _⟩ =>
      show win0_1.index t (0 : Fin 2) * 64 + 1 * j.val = j.val
      omega
    | ⟨1, _⟩ =>
      show win0_1.index t (1 : Fin 2) * 128 + 1 * k'.val = k'.val
      omega
  · show win0_2.index t (2 : Fin 3) * 128 + 1 * (y 2).val = (y 2).val
    omega

/-- An index of the array is in point `t`'s block iff each coordinate is in the block's range on its axis. -/
theorem mem_blk (t : Fin cfg0.N) (i : S16x4096x128.Idx) :
    i ∈ ((cfg0.win 2).blk t).view.set ↔ ∀ a : Fin 3, win0_2.index t a * S4x4096x128.size a ≤ (i a).val
      ∧ (i a).val < win0_2.index t a * S4x4096x128.size a + S4x4096x128.size a := by
  show i ∈ ((View.whole main_v0).slice (win0_2.rect t)).set ↔ _
  rw [View.set_slice_whole, Rect.mem_set_unit]
  exact Iff.rfl

/-- The four blocks tile the array: batch `b` lies in the block of point `b / 4`. -/
theorem covered (i : S16x4096x128.Idx) :
    ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 128 := (i 2).isLt
  obtain ⟨t, ht⟩ := idx_onto ⟨(i 0).val / 4, by omega⟩
  have q0 : win0_2.index t (0 : Fin 3) = (i 0).val / 4 := ht
  obtain ⟨e0, e1, e2, e3, e4, e5, e6, e7⟩ := idx_facts t
  refine ⟨t, flush0_2 t, ?_⟩
  rw [mem_blk]
  intro a
  match a with
  | ⟨0, _⟩ =>
    show win0_2.index t (0 : Fin 3) * 4 ≤ (i 0).val ∧ (i 0).val < win0_2.index t (0 : Fin 3) * 4 + 4
    omega
  | ⟨1, _⟩ =>
    show win0_2.index t (1 : Fin 3) * 4096 ≤ (i 1).val ∧ (i 1).val < win0_2.index t (1 : Fin 3) * 4096 + 4096
    omega
  | ⟨2, _⟩ =>
    show win0_2.index t (2 : Fin 3) * 128 ≤ (i 2).val ∧ (i 2).val < win0_2.index t (2 : Fin 3) * 128 + 128
    omega

/-- The result array after the run is `G` of the argument arrays as launched. -/
theorem final (c : Dev nD) :
    (dats m 0 c).arrAt 2 cfg0.N = G (m ((c : Thread nD τ).loc main_arg0)) (m ((c : Thread nD τ).loc main_arg1)) :=
  (dats m 0 c).arrAt_eq_of_cover 2 (G (V m c main_arg0) (V m c main_arg1)) (fun t _ => flushed_eq m c t) covered

/-- The kernel's run with the result array named as `G` of the arguments, the arguments unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelArr

end
-- ==== Proof.Finite.lean ====
import proofs.«160728_g85598698209303_cont_9to1_m_192_21_alg».proof.Pre_finite_inputs
import proofs.«160728_g85598698209303_cont_9to1_m_192_21_alg».proof.Proof.Gen.Pre_finite_inputs
import Idealize.ShloMosaic.Lib.ReduceAll
import Idealize.ShloMosaic.Lib.ValueIdx
import Idealize.ShloMosaic.PureOps.Ideal

/-!
# Finite inputs are real

The precondition compares the absolute value of every entry of both input arrays against the
pattern `0x7F800000` (which denotes `+∞`) with a strict `<`, and conjoins all the outcomes.
Over the extended reals `|x| = max x (-x)`, and `max x (-x) < ⊤` excludes both `x = ⊤` and
`x = ⊥` (for `-⊥ = ⊤`), so every entry is the coercion of a real number.
-/

namespace Cert.Finite

open Idealize.ShloMosaic Cert.Pre_finite_inputs

/-- The pattern with an all-ones exponent, a zero fraction and a clear sign bit denotes `+∞`. -/
theorem inf_pattern : Ideal.ofBits .f32 0x7F800000#32 = (⊤ : EReal) := by
  simp [Ideal.ofBits, Ideal.ieee]

/-- An extended real whose absolute value `max x (-x)` lies strictly below `⊤` is a real number:
    `x = ⊤` gives `max ⊤ ⊥ = ⊤` and `x = ⊥` gives `max ⊥ ⊤ = ⊤`, neither of which is `< ⊤`. -/
theorem real_of_abs_lt_top (x : EReal) (h : max x (-x) < ⊤) : ∃ r : ℝ, x = (r : EReal) := by
  induction x using EReal.rec with
  | bot => exact absurd h (by simp)
  | coe r => exact ⟨r, rfl⟩
  | top => exact absurd h (by simp)

/-- One entry's comparison read back: if `|x| < +∞` came out true then `x` is real. -/
theorem real_of_cmp (x : EReal)
    (h : Ideal.cmp .olt (max x (-x)) (Ideal.ofBits .f32 0x7F800000#32) = 1#1) :
    ∃ r : ℝ, x = (r : EReal) := by
  rw [inf_pattern] at h
  refine real_of_abs_lt_top x ?_
  by_contra hn
  simp [Ideal.cmp, hn] at h

/-- The scalar shape has exactly one index. -/
instance : Subsingleton S_.Idx := ⟨fun a b => funext fun d => d.elim0⟩

/-- Under the precondition every entry of both input arrays is a real number. -/
theorem real_of_pre (a0 : FVec Ideal S16x4096x128 .f32) (a1 : FVec Ideal S64x128 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨hA, hB⟩ := IntOp.andi_eq_one.1 h0
  refine ⟨fun i => ?_, fun i => ?_⟩
  · exact real_of_cmp (a0 i) (Host.reduce_andi_all _ _ _ _ _ hA i)
  · exact real_of_cmp (a1 i) (Host.reduce_andi_all _ _ _ _ _ hB i)

end Cert.Finite
-- ==== Proof.RefRow.lean ====
/-
  The reference's result at one index is the row function of that token's row and the bank.

  The reference flattens the [16, 4096, 128] array to [65536, 128]: token (b, s) is row b·4096 + s. Read one
  operation at a time at the indices of that row, each stage is a piece of the row's mathematics: the scaled
  token row and the scaled bank rows are quotients by the floored norm, a logit is an inner product of the two over
  the temperature, the shift is the fold of the maximum over the 64 logits, a weight is the shifted exponential over
  the sum of the shifted exponentials, and the result is the scaled row plus the weights' mixture of the scaled bank
  rows. Every index identity is arithmetic on coordinates: (r·128 + k) / 128 = r and (r·128 + k) % 128 = k for
  k < 128, and r / 4096 = b, r % 4096 = s for r = b·4096 + s with s < 4096.
-/
import proofs.«160728_g85598698209303_cont_9to1_m_192_21_alg».proof.Proof.Gen.ReferenceIdeal.Read
import proofs.«160728_g85598698209303_cont_9to1_m_192_21_alg».proof.Proof.RowMath

noncomputable section

namespace Cert.RefRow

open Idealize.ShloMosaic Idealize.ShloMosaic.ValueIdx Cert.ReferenceIdeal Cert.ReferenceIdeal.Read
open Cert.RowMath
open scoped BigOperators

/-- Zero, the value every sum starts from. -/
local notation "cZ" => (Ideal.ofBits FTy.f32 0x00000000#32)
/-- The norm floor. -/
local notation "cE" => (Ideal.ofBits FTy.f32 0x2B8CBCCC#32)
/-- The temperature. -/
local notation "cD" => (Ideal.ofBits FTy.f32 0x3D8F5C29#32)
/-- Minus infinity, the value the maximum starts from. -/
local notation "cN" => (Ideal.ofBits FTy.f32 0xFF800000#32)

/-- Token (b, s) is row b·4096 + s of the flattened array. -/
def row (b : Fin 16) (s : Fin 4096) : Fin 65536 :=
  ⟨b.val * 4096 + s.val, by have hb := b.isLt; have hs := s.isLt; omega⟩

/-! ## The scaled token row -/

/-- The sum of squares of token (b, s)'s row. -/
theorem v1_tok (x0 : (⟨S16x4096x128, .f32⟩ : BufTy).Contents (Elt Ideal)) (b : Fin 16) (s : Fin 4096) :
    val_main_v1 (F := Ideal) x0 (ix2 b s)
      = cZ + ∑ k' : Fin 128, (x0 (ix3 b s k') : EReal) * (x0 (ix3 b s k') : EReal) := by
  rw [val_main_v1_apply]
  have hi : ∀ k' : Fin 128, idx_main_v1 (ix2 b s) k' = ix3 b s k' := fun k' =>
    funext fun a => Fin.ext (by match a with | ⟨0, _⟩ => rfl | ⟨1, _⟩ => rfl | ⟨2, _⟩ => rfl)
  simp only [hi, val_main_v0_apply]
  rfl

/-- Token (b, s)'s row over its floored norm. -/
theorem v7_tok (x0 : (⟨S16x4096x128, .f32⟩ : BufTy).Contents (Elt Ideal)) (b : Fin 16) (s : Fin 4096) (k : Fin 128) :
    val_main_v7 (F := Ideal) x0 (ix3 b s k) = unitDiv cZ cE (fun k' => x0 (ix3 b s k')) k := by
  rw [val_main_v7_apply, val_main_v6_apply, val_main_v5_apply, val_main_v3_apply, val_main_v2_apply,
    val_main_v4_apply]
  have hi : idx_main_v2 (idx_main_v6 (ix3 b s k)) = ix2 b s :=
    funext fun a => Fin.ext (by match a with | ⟨0, _⟩ => rfl | ⟨1, _⟩ => rfl)
  rw [hi, v1_tok]
  rfl

/-- Row r = b·4096 + s of the flattened array at column k is entry (b, s, k). -/
theorem idx8_row (b : Fin 16) (s : Fin 4096) (k : Fin 128) : idx_main_v8 (ix2 (row b s) k) = ix3 b s k :=
  funext fun a => Fin.ext (by
    have hb := b.isLt; have hs := s.isLt; have hk := k.isLt
    match a with
    | ⟨0, _⟩ => show ((b.val * 4096 + s.val) * 128 + k.val) / 524288 = b.val; omega
    | ⟨1, _⟩ => show ((b.val * 4096 + s.val) * 128 + k.val) / 128 % 4096 = s.val; omega
    | ⟨2, _⟩ => show ((b.val * 4096 + s.val) * 128 + k.val) % 128 = k.val; omega)

/-- The flattened scaled array at row r = b·4096 + s is token (b, s)'s scaled row. -/
theorem v8_tok (x0 : (⟨S16x4096x128, .f32⟩ : BufTy).Contents (Elt Ideal)) (b : Fin 16) (s : Fin 4096) (k : Fin 128) :
    val_main_v8 (F := Ideal) x0 (ix2 (row b s) k) = unitDiv cZ cE (fun k' => x0 (ix3 b s k')) k := by
  rw [val_main_v8_apply, idx8_row, v7_tok]

/-! ## The scaled bank rows -/

/-- The sum of squares of bank row j. -/
theorem v10_bank (x1 : (⟨S64x128, .f32⟩ : BufTy).Contents (Elt Ideal)) (j : Fin 64) :
    val_main_v10 (F := Ideal) x1 (ix1 j)
      = cZ + ∑ k' : Fin 128, (x1 (ix2 j k') : EReal) * (x1 (ix2 j k') : EReal) := by
  rw [val_main_v10_apply]
  have hi : ∀ k' : Fin 128, idx_main_v10 (ix1 j) k' = ix2 j k' := fun k' =>
    funext fun a => Fin.ext (by match a with | ⟨0, _⟩ => rfl | ⟨1, _⟩ => rfl)
  simp only [hi, val_main_v9_apply]
  rfl

/-- Bank row j over its floored norm. -/
theorem v16_bank (x1 : (⟨S64x128, .f32⟩ : BufTy).Contents (Elt Ideal)) (j : Fin 64) (k : Fin 128) :
    val_main_v16 (F := Ideal) x1 (ix2 j k) = unitDiv cZ cE (fun k' => x1 (ix2 j k')) k := by
  rw [val_main_v16_apply, val_main_v15_apply, val_main_v14_apply, val_main_v12_apply, val_main_v11_apply,
    val_main_v13_apply]
  have hi : idx_main_v11 (idx_main_v15 (ix2 j k)) = ix1 j :=
    funext fun a => Fin.ext (by match a with | ⟨0, _⟩ => rfl)
  rw [hi, v10_bank]
  rfl

/-! ## The logits -/

/-- Logit j of row r = b·4096 + s: the inner product of the scaled row with scaled bank row j, over the temperature. -/
theorem v20_row (x0 : (⟨S16x4096x128, .f32⟩ : BufTy).Contents (Elt Ideal)) (x1 : (⟨S64x128, .f32⟩ : BufTy).Contents (Elt Ideal))
    (b : Fin 16) (s : Fin 4096) (j : Fin 64) :
    val_main_v20 (F := Ideal) x0 x1 (ix2 (row b s) j)
      = logitDiv cD (unitDiv cZ cE (fun k' => x0 (ix3 b s k')))
          (fun j' => unitDiv cZ cE (fun k' => x1 (ix2 j' k'))) j := by
  rw [val_main_v20_apply, val_main_v18_apply, val_main_v19_apply]
  have hl : ∀ k' : Fin 128, lidx_main_v18 (ix2 (row b s) j) k' = ix2 (row b s) k' := fun k' =>
    funext fun a => Fin.ext (by match a with | ⟨0, _⟩ => rfl | ⟨1, _⟩ => rfl)
  have hr : ∀ k' : Fin 128, idx_main_v17 (ridx_main_v18 (ix2 (row b s) j) k') = ix2 j k' := fun k' =>
    funext fun a => Fin.ext (by match a with | ⟨0, _⟩ => rfl | ⟨1, _⟩ => rfl)
  simp only [hl, val_main_v17_apply, hr, v8_tok, v16_bank]
  rfl

/-! ## The shift: the largest logit of the row -/

/-- Row r of the reduced index with column j put back is (r, j). -/
theorem lift_row (h : S65536x64.Reduces [1] S65536) (r : Fin 65536) (j : Fin (S65536x64.size 1)) :
    h.lift (ix1 r) j = ix2 r (⟨j.val, j.isLt⟩ : Fin 64) := by
  funext c; apply Fin.ext
  match c with
  | ⟨0, _⟩ => rfl
  | ⟨1, _⟩ => rfl

/-- Dropping the column axis of a [65536, 64] array leaves its 65536 rows. -/
theorem reduces_rows : S65536x64.Reduces [1] S65536 := by decide

/-- A maximum-reduce over the columns of a [65536, 64] array is, at row r, the fold of the maximum over that row's 64
    entries, from the initial value. -/
theorem hostMax_row (y : (⟨S65536x64, .f32⟩ : BufTy).Contents (Elt Ideal)) (init : (⟨S_, .f32⟩ : BufTy).Contents (Elt Ideal))
    (h' : S65536x64.ReducesTo [1] S65536) (hu : 0 < S_.numel) (r : Fin 65536) :
    Host.reduce (FloatOps.maximumf (F := Ideal) (φ := .f32)) y init h' hu (ix1 r)
      = (Finset.univ : Finset (Fin 64)).fold max (init (Shape.Idx.first hu)) (fun j => y (ix2 r j)) := by
  have e := Host.reduce_eq_fold_single (s := S65536x64) (t := S65536) (a := (1 : Fin 2)) (u := S_)
    (FloatOps.maximumf (F := Ideal) (φ := .f32)) y init h' reduces_rows hu (ix1 r)
  refine e.trans ?_
  have hf : (y ∘ reduces_rows.lift (ix1 r)) = fun j : Fin 64 => y (ix2 r j) :=
    funext fun j => congrArg y (lift_row reduces_rows r j)
  exact congrArg (fun f => Finset.fold max (init (Shape.Idx.first hu)) f (Finset.univ : Finset (Fin 64))) hf

/-- The maximum-reduce at row r is the fold of the maximum over that row's 64 logits, from minus infinity. -/
theorem v21_row (x0 : (⟨S16x4096x128, .f32⟩ : BufTy).Contents (Elt Ideal)) (x1 : (⟨S64x128, .f32⟩ : BufTy).Contents (Elt Ideal))
    (r : Fin 65536) :
    val_main_v21 (F := Ideal) x0 x1 (ix1 r)
      = (Finset.univ : Finset (Fin 64)).fold max cN (fun j => val_main_v20 (F := Ideal) x0 x1 (ix2 r j)) := by
  unfold val_main_v21
  exact hostMax_row (val_main_v20 (F := Ideal) x0 x1) (val_main_cst_4 (F := Ideal)) _ _ r

/-- The shift of row r. -/
theorem v23_row (x0 : (⟨S16x4096x128, .f32⟩ : BufTy).Contents (Elt Ideal)) (x1 : (⟨S64x128, .f32⟩ : BufTy).Contents (Elt Ideal))
    (r : Fin 65536) :
    val_main_v23 (F := Ideal) x0 x1 (ix1 r)
      = rowShift cN cN (fun j => val_main_v20 (F := Ideal) x0 x1 (ix2 r j)) := by
  rw [val_main_v23_apply, val_main_v22_apply, v21_row]
  rfl

/-! ## The weights -/

/-- The shifted exponential of logit j of row r. -/
theorem v27_row (x0 : (⟨S16x4096x128, .f32⟩ : BufTy).Contents (Elt Ideal)) (x1 : (⟨S64x128, .f32⟩ : BufTy).Contents (Elt Ideal))
    (r : Fin 65536) (j : Fin 64) :
    val_main_v27 (F := Ideal) x0 x1 (ix2 r j)
      = Ideal.exp (val_main_v20 (F := Ideal) x0 x1 (ix2 r j) - val_main_v23 (F := Ideal) x0 x1 (ix1 r)) := by
  rw [val_main_v27_apply, val_main_v26_apply, val_main_v25_apply, val_main_v24_apply]
  have hi : idx_main_v24 (idx_main_v25 (ix2 r j)) = ix1 r :=
    funext fun a => Fin.ext (by match a with | ⟨0, _⟩ => rfl)
  rw [hi]
  rfl

/-- The sum of row r's shifted exponentials. -/
theorem v28_row (x0 : (⟨S16x4096x128, .f32⟩ : BufTy).Contents (Elt Ideal)) (x1 : (⟨S64x128, .f32⟩ : BufTy).Contents (Elt Ideal))
    (r : Fin 65536) :
    val_main_v28 (F := Ideal) x0 x1 (ix1 r)
      = cZ + ∑ j : Fin 64, (val_main_v27 (F := Ideal) x0 x1 (ix2 r j) : EReal) := by
  rw [val_main_v28_apply]
  have hi : ∀ j : Fin 64, idx_main_v28 (ix1 r) j = ix2 r j := fun j =>
    funext fun a => Fin.ext (by match a with | ⟨0, _⟩ => rfl | ⟨1, _⟩ => rfl)
  simp only [hi]
  rfl

/-- Weight j of row r: the shifted softmax of the row's logits. -/
theorem v31_row (x0 : (⟨S16x4096x128, .f32⟩ : BufTy).Contents (Elt Ideal)) (x1 : (⟨S64x128, .f32⟩ : BufTy).Contents (Elt Ideal))
    (r : Fin 65536) (j : Fin 64) :
    val_main_v31 (F := Ideal) x0 x1 (ix2 r j)
      = softShift cZ (val_main_v23 (F := Ideal) x0 x1 (ix1 r))
          (fun j' => val_main_v20 (F := Ideal) x0 x1 (ix2 r j')) j := by
  rw [val_main_v31_apply, val_main_v30_apply, val_main_v29_apply]
  have hi : idx_main_v29 (idx_main_v30 (ix2 r j)) = ix1 r :=
    funext fun a => Fin.ext (by match a with | ⟨0, _⟩ => rfl)
  rw [hi, v28_row]
  simp only [v27_row]
  rfl

/-! ## The mixture and the result -/

/-- Row r of the sum: the scaled row plus the weights' mixture of the scaled bank rows. -/
theorem v33_row (x0 : (⟨S16x4096x128, .f32⟩ : BufTy).Contents (Elt Ideal)) (x1 : (⟨S64x128, .f32⟩ : BufTy).Contents (Elt Ideal))
    (r : Fin 65536) (k : Fin 128) :
    val_main_v33 (F := Ideal) x0 x1 (ix2 r k)
      = (val_main_v8 (F := Ideal) x0 (ix2 r k) : EReal)
        + ∑ j : Fin 64, (val_main_v31 (F := Ideal) x0 x1 (ix2 r j) : EReal) * (val_main_v16 (F := Ideal) x1 (ix2 j k) : EReal) := by
  rw [val_main_v33_apply, val_main_v32_apply]
  have hl : ∀ j : Fin 64, lidx_main_v32 (ix2 r k) j = ix2 r j := fun j =>
    funext fun a => Fin.ext (by match a with | ⟨0, _⟩ => rfl | ⟨1, _⟩ => rfl)
  have hr : ∀ j : Fin 64, ridx_main_v32 (ix2 r k) j = ix2 j k := fun j =>
    funext fun a => Fin.ext (by match a with | ⟨0, _⟩ => rfl | ⟨1, _⟩ => rfl)
  simp only [hl, hr]
  rfl

/-- Entry (b, s, k) of the result is entry (r, k) of the flattened one, r = b·4096 + s. -/
theorem idx34_row (b : Fin 16) (s : Fin 4096) (k : Fin 128) : idx_main_v34 (ix3 b s k) = ix2 (row b s) k :=
  funext fun a => Fin.ext (by
    have hb := b.isLt; have hs := s.isLt; have hk := k.isLt
    match a with
    | ⟨0, _⟩ => show ((b.val * 4096 + s.val) * 128 + k.val) / 128 = b.val * 4096 + s.val; omega
    | ⟨1, _⟩ => show ((b.val * 4096 + s.val) * 128 + k.val) % 128 = k.val; omega)

/-- The reference's result at (b, s, k) is the row function of token (b, s)'s row and the bank, at k. -/
theorem result_apply (x0 : (⟨S16x4096x128, .f32⟩ : BufTy).Contents (Elt Ideal)) (x1 : (⟨S64x128, .f32⟩ : BufTy).Contents (Elt Ideal))
    (b : Fin 16) (s : Fin 4096) (k : Fin 128) :
    val_main_v34 (F := Ideal) x0 x1 (ix3 b s k)
      = Cert.RowMath.rowDiv (Ideal.ofBits .f32 0x00000000#32) (Ideal.ofBits .f32 0x2B8CBCCC#32) (Ideal.ofBits .f32 0x3D8F5C29#32)
          (Cert.RowMath.rowShift (Ideal.ofBits .f32 0xFF800000#32) (Ideal.ofBits .f32 0xFF800000#32))
          (fun k' => x0 (ix3 b s k')) (fun j k' => x1 (ix2 j k')) k := by
  rw [val_main_v34_apply, idx34_row, v33_row]
  simp only [v31_row, v23_row, v20_row, v8_tok, v16_bank]
  rfl

end Cert.RefRow

end
-- ==== Proof.Consts.lean ====
/-
  The float literals the two programs spell, as the extended reals their binary patterns denote:
  one, minus infinity, the norm floor e = f32(1e-12) and the temperature d = f32(0.07), each an exact
  dyadic rational.
-/
import Idealize.ShloMosaic.PureOps.Ideal

noncomputable section

namespace Cert.Consts

open Idealize.ShloMosaic

/-- The pattern of `1.0` denotes `1`. -/
theorem ofBits_one : Ideal.ofBits .f32 0x3F800000#32 = 1 := by
  simp [Ideal.ofBits, Ideal.ieee, -EReal.coe_mul]; norm_num

/-- The pattern of `-inf` denotes the bottom of the extended reals. -/
theorem ofBits_ninf : Ideal.ofBits .f32 0xFF800000#32 = ⊥ := by
  simp [Ideal.ofBits, Ideal.ieee]

/-- The norm floor: the f32 nearest `1e-12` is `2305843 / 2^61`. -/
theorem ofBits_eps : Ideal.ofBits .f32 0x2B8CBCCC#32 = ((2305843 / 2305843009213693952 : ℝ) : EReal) := by
  simp [Ideal.ofBits, Ideal.ieee, -EReal.coe_mul]; norm_num

/-- The temperature: the f32 nearest `0.07` is `9395241 / 2^27`. -/
theorem ofBits_temp : Ideal.ofBits .f32 0x3D8F5C29#32 = ((9395241 / 134217728 : ℝ) : EReal) := by
  simp [Ideal.ofBits, Ideal.ieee, -EReal.coe_mul]; norm_num

end Cert.Consts

end
-- ==== Proof.Bridge.lean ====
/-
  The two programs compute one function.

  On real inputs the kernel's whole-array function `G` (the row function by reciprocal square root, bank times `1/d`,
  plain softmax) and the reference's last stage (the row function by division, inner product over `d`, softmax shifted by
  the row's largest logit) are both the coercion of the real row function `enhanced e d`: the named floor under the sum
  of squares is exactly `e²` for the reference's norm floor `e = 2305843 / 2^61`, the named factor is exactly `1/d` for the
  reference's temperature `d = 9395241 / 2^27`, the accumulators start from zero, the all-ones matrix holds ones, and
  the maximum starts from minus infinity.
-/
import proofs.«160728_g85598698209303_cont_9to1_m_192_21_alg».proof.Proof.KernelArr
import proofs.«160728_g85598698209303_cont_9to1_m_192_21_alg».proof.Proof.RefRow
import proofs.«160728_g85598698209303_cont_9to1_m_192_21_alg».proof.Proof.Consts
import Idealize.ShloMosaic.PureOps.IdealRules

noncomputable section

namespace Cert.Bridge

open Idealize.ShloMosaic Idealize.ShloMosaic.ValueIdx Cert.RowMath
open scoped BigOperators

/-- The norm floor, the f32 nearest `1e-12`. -/
def e : ℝ := 2305843 / 2305843009213693952
/-- The temperature, the f32 nearest `0.07`. -/
def d : ℝ := 9395241 / 134217728

theorem e_pos : 0 < e := by unfold e; norm_num
theorem d_ne : d ≠ 0 := by unfold d; norm_num

theorem one_eq : Ideal.ofBits .f32 0x3F800000#32 = (1 : EReal) := Cert.Consts.ofBits_one
theorem eps_eq : Ideal.ofBits .f32 0x2B8CBCCC#32 = ((e : ℝ) : EReal) := Cert.Consts.ofBits_eps
theorem temp_eq : Ideal.ofBits .f32 0x3D8F5C29#32 = ((d : ℝ) : EReal) := Cert.Consts.ofBits_temp

/-- The named floor under the sum of squares is the square of the norm floor. -/
theorem eps2_eq : Named.named (F := Ideal) Cert.KernelIdeal.κ "eps_squared" (φ := .f32) 0x179ABE15#32 = ((e * e : ℝ) : EReal) := by
  have h : Named.named (F := Ideal) Cert.KernelIdeal.κ "eps_squared" (φ := .f32) 0x179ABE15#32
      = ((5316911940649 / 5316911983139663491615228241121378304 : ℝ) : EReal) :=
    IdealRules.named_const.ideal_named_scalar _ _ _ _ rfl
  rw [h]
  exact congrArg _ (by unfold e; norm_num)

/-- The named factor on the bank is the reciprocal of the temperature. -/
theorem inv_eq : Named.named (F := Ideal) Cert.KernelIdeal.κ "inv_temperature" (φ := .f32) 0x41649249#32 = ((1 / d : ℝ) : EReal) := by
  have h : Named.named (F := Ideal) Cert.KernelIdeal.κ "inv_temperature" (φ := .f32) 0x41649249#32
      = ((134217728 / 9395241 : ℝ) : EReal) :=
    IdealRules.named_const.ideal_named_scalar _ _ _ _ rfl
  rw [h]
  exact congrArg _ (by unfold d; norm_num)

/-- On real arrays the kernel's whole-array function is the reference's last stage. -/
theorem G_eq_ref (X : Cert.KernelIdeal.S16x4096x128.Idx → Elt Ideal .f32) (M : Cert.KernelIdeal.S64x128.Idx → Elt Ideal .f32)
    (hX : ∀ i, ∃ r : ℝ, X i = (r : EReal)) (hM : ∀ i, ∃ r : ℝ, M i = (r : EReal)) :
    Cert.KernelArr.G X M = Cert.ReferenceIdeal.Read.val_main_v34 (F := Ideal) X M := by
  funext i
  have hi : i = ix3 (⟨(i 0).val, (i 0).isLt⟩ : Fin 16) (⟨(i 1).val, (i 1).isLt⟩ : Fin 4096) (⟨(i 2).val, (i 2).isLt⟩ : Fin 128) :=
    funext fun a => Fin.ext (by
      match a with
      | ⟨0, _⟩ => rfl
      | ⟨1, _⟩ => rfl
      | ⟨2, _⟩ => rfl)
  refine Eq.trans ?_ ((congrArg (Cert.ReferenceIdeal.Read.val_main_v34 (F := Ideal) X M) hi).trans
    (Cert.RefRow.result_apply X M _ _ _)).symm
  choose x hx using fun k' : Fin 128 => hX (ix3 (⟨(i 0).val, (i 0).isLt⟩ : Fin 16) (⟨(i 1).val, (i 1).isLt⟩ : Fin 4096) k')
  choose B hB using fun (j : Fin 64) (k' : Fin 128) => hM (ix2 j k')
  have ex : (fun k' : Fin 128 => (X (ix3 (⟨(i 0).val, (i 0).isLt⟩ : Fin 16) (⟨(i 1).val, (i 1).isLt⟩ : Fin 4096) k') : EReal))
      = fun k' => ((x k' : ℝ) : EReal) := funext hx
  have eB : (fun (j : Fin 64) (k' : Fin 128) => (M (ix2 j k') : EReal)) = fun j k' => ((B j k' : ℝ) : EReal) :=
    funext fun j => funext fun k' => hB j k'
  show rowMul (Ideal.ofBits .f32 0x3F800000#32) (Ideal.ofBits .f32 0x2B8CBCCC#32)
      (Named.named (F := Ideal) Cert.KernelIdeal.κ "eps_squared" (φ := .f32) 0x179ABE15#32)
      (Named.named (F := Ideal) Cert.KernelIdeal.κ "inv_temperature" (φ := .f32) 0x41649249#32)
      (fun k' : Fin 128 => (X (ix3 (⟨(i 0).val, (i 0).isLt⟩ : Fin 16) (⟨(i 1).val, (i 1).isLt⟩ : Fin 4096) k') : EReal))
      (fun (j : Fin 64) (k' : Fin 128) => (M (ix2 j k') : EReal)) (⟨(i 2).val, (i 2).isLt⟩ : Fin 128)
    = rowDiv (Ideal.ofBits .f32 0x00000000#32) (Ideal.ofBits .f32 0x2B8CBCCC#32) (Ideal.ofBits .f32 0x3D8F5C29#32)
      (rowShift (Ideal.ofBits .f32 0xFF800000#32) (Ideal.ofBits .f32 0xFF800000#32))
      (fun k' : Fin 128 => (X (ix3 (⟨(i 0).val, (i 0).isLt⟩ : Fin 16) (⟨(i 1).val, (i 1).isLt⟩ : Fin 4096) k') : EReal))
      (fun (j : Fin 64) (k' : Fin 128) => (M (ix2 j k') : EReal)) (⟨(i 2).val, (i 2).isLt⟩ : Fin 128)
  rw [ex, eB, one_eq, eps_eq, eps2_eq, inv_eq, Ideal.ofBits_zero_f32, temp_eq, Cert.Consts.ofBits_ninf]
  rw [rowMul_coe e_pos x B, rowDiv_coe e_pos d_ne _ rowShift_real x B]

end Cert.Bridge

end
-- ==== Proof.lean ====
/-
  A memory-bank attention layer, kernel against reference, over the extended reals.

  For each of the 16 × 4096 tokens, with feature row `x` of 128 numbers, and a bank `B` of 64 rows: scale `x` and every
  bank row to unit length (dividing by the norm floored at `e`), take the 64 inner products over the temperature `d`,
  softmax them, and add the weights' mixture of the scaled bank rows to the scaled `x`.

  The reference does this on the whole [65536, 128] array: `x / max (√∑x²) e`, `(xn · bnᵀ) / d`, a softmax that
  subtracts the row's largest logit, one more product with the scaled bank, a sum. The kernel does it on four blocks of
  four batches each: the sum of squares as a product with an all-ones matrix, `x · rsqrt (max (∑x²) e²)` with the floor
  `e²` NAMED as the square of the reference's own floor, the bank multiplied by `1/d` NAMED as the reciprocal of the
  reference's own temperature, and a softmax with no shift. On finite inputs the two agree: `√(max a e²) = max (√a) e`,
  a factor `1/d` moves out of a finite sum, and a finite common shift cancels between a softmax's numerator and
  denominator. Finiteness is what the precondition gives and it is used: at an infinite entry these laws fail.

  The modules: RowMath (the row over the reals and its two spellings over the extended reals), KernelRow and KernelArr
  (the kernel's stored value at an element, and the blocks assembled into one whole-array function), RefRow (the
  reference's last stage at an element), Finite (the precondition read), Bridge (the two whole-array functions are
  equal on real inputs). The three frames are the generated runs; the idealization's two rewrites are the two names.
-/
import proofs.«160728_g85598698209303_cont_9to1_m_192_21_alg».proof.Defs
import proofs.«160728_g85598698209303_cont_9to1_m_192_21_alg».proof.Proof.Gen.Kernel
import proofs.«160728_g85598698209303_cont_9to1_m_192_21_alg».proof.Proof.Gen.Kernel.Skeleton
import proofs.«160728_g85598698209303_cont_9to1_m_192_21_alg».proof.Proof.Gen.Kernel.Launch
import proofs.«160728_g85598698209303_cont_9to1_m_192_21_alg».proof.Proof.Gen.Kernel.Points
import proofs.«160728_g85598698209303_cont_9to1_m_192_21_alg».proof.Proof.Gen.Kernel.Frame
import proofs.«160728_g85598698209303_cont_9to1_m_192_21_alg».proof.Proof.Gen.KernelIdeal
import proofs.«160728_g85598698209303_cont_9to1_m_192_21_alg».proof.Proof.Gen.KernelIdeal.Skeleton
import proofs.«160728_g85598698209303_cont_9to1_m_192_21_alg».proof.Proof.Gen.KernelIdeal.Launch
import proofs.«160728_g85598698209303_cont_9to1_m_192_21_alg».proof.Proof.Gen.KernelIdeal.Points
import proofs.«160728_g85598698209303_cont_9to1_m_192_21_alg».proof.Proof.Gen.KernelIdeal.Frame
import proofs.«160728_g85598698209303_cont_9to1_m_192_21_alg».proof.Proof.Gen.ReferenceIdeal
import proofs.«160728_g85598698209303_cont_9to1_m_192_21_alg».proof.Proof.Gen.Pre_finite_inputs
import proofs.«160728_g85598698209303_cont_9to1_m_192_21_alg».proof.Proof.Gen.KernelIdeal.Value
import proofs.«160728_g85598698209303_cont_9to1_m_192_21_alg».proof.Proof.Gen.ReferenceIdeal.Run
import proofs.«160728_g85598698209303_cont_9to1_m_192_21_alg».proof.Proof.Gen.ReferenceIdeal.Read
import proofs.«160728_g85598698209303_cont_9to1_m_192_21_alg».proof.Proof.KernelArr
import proofs.«160728_g85598698209303_cont_9to1_m_192_21_alg».proof.Proof.Finite
import proofs.«160728_g85598698209303_cont_9to1_m_192_21_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- The idealized kernel runs and leaves its arguments as they were. -/
theorem frame_kernelIdeal : Cert.frame_KernelIdeal := fun m ρ _ => Cert.KernelIdeal.Gen.frame m ρ

/-- The idealized reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization's two rewrites: the table gives the floor under the sum of squares the value `e²` and the factor
    on the bank the value `1/d`, and the printed constants are those values. -/
theorem preserves : Cert.preserves_Kernel_KernelIdeal :=
  ⟨IdealRules.named_const.statement Cert.KernelIdeal.κ "eps_squared" .f32 0x179ABE15#32
      ((5316911940649 / 5316911983139663491615228241121378304 : ℝ) : EReal) rfl,
    IdealRules.named_const.statement Cert.KernelIdeal.κ "inv_temperature" .f32 0x41649249#32
      ((134217728 / 9395241 : ℝ) : EReal) rfl⟩

/-- From memories agreeing on the two arguments both idealized programs end with the result array at the whole-array
    row function `G` of the arguments: the kernel by its four blocks, the reference because on finite inputs its last
    stage is `G`. -/
theorem algebraic : Cert.algebraic_KernelIdeal_ReferenceIdeal := by
  intro m ρ m' ρ' hpre hagree
  refine ⟨fun c => Cert.KernelArr.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArr.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hM⟩ := Cert.Finite.real_of_pre _ _ (hpre c)
  rw [Cert.ReferenceIdeal.Read.val_main_v34_eq, (hagree c).1, (hagree c).2]
  exact (Cert.Bridge.G_eq_ref _ _ hX hM).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
